-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S4000x64 : Shape := ⟨2, ![4000, 64]⟩
abbrev S1100000x64 : Shape := ⟨2, ![1100000, 64]⟩
abbrev S4000x1 : Shape := ⟨2, ![4000, 1]⟩
abbrev S1x64 : Shape := ⟨2, ![1, 64]⟩

abbrev nBuf : Space → Nat
  | .hbm => 65
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S1000000, .i1⟩
  | .hbm, ⟨9, _⟩ => ⟨S1000000, .f32⟩
  | .hbm, ⟨10, _⟩ => ⟨S100000, .i32⟩
  | .hbm, ⟨11, _⟩ => ⟨S1100000, .i32⟩
  | .hbm, ⟨12, _⟩ => ⟨S1100000, .i32⟩
  | .hbm, ⟨13, _⟩ => ⟨S_, .f32⟩
  | .hbm, ⟨14, _⟩ => ⟨S100000, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S_, .f32⟩
  | .hbm, ⟨61, _⟩ => ⟨S100000x64, .f32⟩
  | .hbm, ⟨62, _⟩ => ⟨S1100000x1, .i32⟩
  | .hbm, ⟨63, _⟩ => ⟨S100000x64, .f32⟩
  | .hbm, ⟨64, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x1, .f32⟩
  | .local _ .vmem, ⟨8, _⟩ => ⟨S4000x1, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64, .f32⟩
  | .local _ .vmem, ⟨14, _⟩ => ⟨S4000x64, .f32⟩
  | .local _ .vmem, ⟨15, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![275], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S1100000_S1100000x1 : S1100000.ShapeCasts S1100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  shapeCasts_S4000x64_S4000x64 : S4000x64.ShapeCasts S4000x64
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S4000x64 : S1x64.Broadcasts S4000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S4000x64_S64x64_S4000x64_1_0_0_1_n_n_wf : DotDims.WF S4000x64 S64x64 S4000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1100000x64.size a
  hwx1_0 : ∀ i : grid1.Coords, EltTy.bits .f32 = 32 ∨ (Rect.block (s := S1100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1100000x1.size a
  hwx1_1 : ∀ i : grid1.Coords, EltTy.bits .f32 = 32 ∨ (Rect.block (s := S1100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1100000x64.size a
  hwx1_2 : ∀ i : grid1.Coords, EltTy.bits .f32 = 32 ∨ (Rect.block (s := S1100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S1000000, .i1⟩
  | .hbm, ⟨9, _⟩ => ⟨S1000000, .f32⟩
  | .hbm, ⟨10, _⟩ => ⟨S100000, .i32⟩
  | .hbm, ⟨11, _⟩ => ⟨S1100000, .i32⟩
  | .hbm, ⟨12, _⟩ => ⟨S1100000, .i32⟩
  | .hbm, ⟨13, _⟩ => ⟨S_, .f32⟩
  | .hbm, ⟨14, _⟩ => ⟨S100000, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S64x64, .f32⟩
  | .hbm, ⟨49, _⟩ => ⟨S100000x64, .f32⟩
  | .hbm, ⟨50, _⟩ => ⟨S1100000x1, .f32⟩
  | .hbm, ⟨51, _⟩ => ⟨S_, .i32⟩
  | .hbm, ⟨52, _⟩ => ⟨S1100000, .i32⟩
  | .hbm, ⟨53, _⟩ => ⟨S1100000, .i1⟩
  | .hbm, ⟨54, _⟩ => ⟨S_, .i32⟩
  | .hbm, ⟨55, _⟩ => ⟨S1100000, .i32⟩
  | .hbm, ⟨56, _⟩ => ⟨S1100000, .i32⟩
  | .hbm, ⟨57, _⟩ => ⟨S1100000, .i32⟩
  | .hbm, ⟨58, _⟩ => ⟨S1100000x1, .i32⟩
  | .hbm, ⟨59, _⟩ => ⟨S1100000x64, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  transposes_S64x64_S64x64_1_0 : S64x64.Transposes [1, 0] S64x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LinearRows.lean ====
/-
  The first kernel region is the linear layer `x · Wᵀ`. Its grid has 25 points; point `t` reads rows
  `4000·t … 4000·t + 3999` of `x : [100000, 64]` and the whole weight matrix `W : [64, 64]`, and writes the same rows of
  the result. The body changes both operands' float format (the identity on the extended reals), transposes `W` and
  multiplies into a zero accumulator, so entry `(p, q)` of the block is `∑ₖ x (p, k) · W (q, k)`: row `p` of `x` against row
  `q` of `W`. After the region the result array is therefore ONE function of the two arrays the region found, and the
  blocks tile it exactly (25 · 4000 = 100000).
-/
import proofs.«148598_j59012850647685_1_alg».proof.Proof.Gen.KernelIdeal.Frame
import proofs.«148598_j59012850647685_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinearRows

open Cert.KernelIdeal Cert.KernelIdeal.Gen
open Idealize.ShloMosaic Idealize.ShloMosaic.TcCoe Idealize.ShloMosaic.ValueIdx Idealize.SL.Sem
open Idealize.ShloMosaic.Pipeline (Dat)

/-- The origin of a rank-2 block. -/
theorem origin2 : (![0, 0] : Fin 2 → Nat) = fun _ => 0 := funext fun a => by fin_cases a <;> rfl

/-- Entry `k` of the row of `x` that the result's entry `i` is computed from, and of the row of `W`. -/
abbrev inRow (i : S100000x64.Idx) (k : Fin 64) : S100000x64.Idx := fun a => match a with
  | ⟨0, _⟩ => ⟨(i 0).val, (i 0).isLt⟩
  | ⟨1, _⟩ => ⟨k.val, k.isLt⟩
abbrev weightRow (i : S100000x64.Idx) (k : Fin 64) : S64x64.Idx := fun a => match a with
  | ⟨0, _⟩ => ⟨(i 1).val, (i 1).isLt⟩
  | ⟨1, _⟩ => ⟨k.val, k.isLt⟩

/-- The linear layer: each row of `x` against each row of `W`. -/
abbrev projected (x : FVec Ideal S100000x64 .f32) (w : FVec Ideal S64x64 .f32) : FVec Ideal S100000x64 .f32 :=
  fun i => ∑ k : Fin 64, x (inRow i k) * w (weightRow i k)

/-- The body's product at an entry of the block. -/
theorem body_apply (x : Vec Ideal S4000x64 .f32) (w : Vec Ideal S64x64 .f32) (p : Fin 4000) (q : Fin 64) :
    k0_pay1 (F := Ideal) x w (ix2 p q) = ∑ k : Fin 64, x (ix2 p k) * w (ix2 q k) := by
  unfold k0_pay1
  refine (Cert.LibRowOps.matmul_plain_zero_apply 4000 64 64 _ _ p q).trans ?_
  refine Finset.sum_congr rfl fun k _ => ?_
  rw [transpose_ix2_apply]
  rfl

variable (V : (c : Dev nD) → (b : Ref sig .tc) → Buf (Elt Ideal) ((c : Thread nD τ).loc b))

/-- The two arrays the region reads, as the region finds them, at their literal types. -/
abbrev xArr (c : Dev nD) : FVec Ideal S100000x64 .f32 := V c main_arg0
abbrev wArr (c : Dev nD) : FVec Ideal S64x64 .f32 := V c main_arg2

/-- The row windows move together, at block `t` of the rows and block `0` of the columns; the weight window stays at
    the origin. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of `projected` of the two arrays the region found. -/
theorem flushed_eq (c : Dev nD) (t : Fin cfg0.N) :
    (dat0 V c).flushed 2 t = ((cfg0.win 2).blk t).view.read (Elt Ideal) (projected (xArr V c) (wArr V c)) := by
  show (cfg0.win 2).cut (grid0.coords t) ((dat0 V c).after 2 t) = _
  rw [after0_2]
  unfold out0_2
  rw [View.canon_unit_zero origin2]
  simp only [View.ld_unit_zero (S := S4000x64) origin2, View.ld_unit_zero (S := S64x64) origin2]
  obtain ⟨e0, e1, e2, e3, e4, e5⟩ := index_facts t
  funext j
  obtain ⟨p, q, rfl⟩ : ∃ (p : Fin 4000) (q : Fin 64), j = ix2 p q := ⟨j 0, j 1, eq_ix2 j⟩
  refine (body_apply (iblk0 V c 0 t) (iblk0 V c 1 t) p q).trans ?_
  show ∑ k : Fin 64, xArr V c (((cfg0.win 0).blk t).view.emb (ix2 p k)) * wArr V c (((cfg0.win 1).blk t).view.emb (ix2 q k))
    = ∑ k : Fin 64, xArr V c (inRow (((cfg0.win 2).blk t).view.emb (ix2 p q)) k) * wArr V c (weightRow (((cfg0.win 2).blk t).view.emb (ix2 p q)) k)
  refine Finset.sum_congr rfl fun k _ => ?_
  have h0 : ((cfg0.win 0).blk t).view.emb (ix2 p k) = inRow (((cfg0.win 2).blk t).view.emb (ix2 p q)) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 64 + 1 * k.val = k.val; omega
  have h1 : ((cfg0.win 1).blk t).view.emb (ix2 q k) = weightRow (((cfg0.win 2).blk t).view.emb (ix2 p q)) k := by
    funext a; apply Fin.ext
    match a with
    | ⟨0, _⟩ => show win0_1.index t (0 : Fin 2) * 64 + 1 * q.val = win0_2.index t (1 : Fin 2) * 64 + 1 * q.val; omega
    | ⟨1, _⟩ => show win0_1.index t (1 : Fin 2) * 64 + 1 * k.val = k.val; omega
  rw [h0, h1]

/-- An index of the array is in point `t`'s block iff each coordinate is in the block's range on its axis. -/
theorem mem_block (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v34).slice (win0_2.rect t)).set ↔ _
  rw [View.set_slice_whole, Rect.mem_set_unit]
  exact Iff.rfl

/-- Every entry is in the block of the point its row falls in. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 4000, by show (i 0).val / 4000 < 25; omega⟩, flush0_2 _, ?_⟩
  obtain ⟨e0, e1, e2, e3, e4, e5⟩ := index_facts ⟨(i 0).val / 4000, by show (i 0).val / 4000 < 25; omega⟩
  rw [mem_block]
  intro a
  match a with
  | ⟨0, _⟩ =>
    show win0_2.index _ (0 : Fin 2) * 4000 ≤ (i 0).val ∧ (i 0).val < win0_2.index _ (0 : Fin 2) * 4000 + 4000
    rw [e5]; show (i 0).val / 4000 * 4000 ≤ (i 0).val ∧ (i 0).val < (i 0).val / 4000 * 4000 + 4000; omega
  | ⟨1, _⟩ =>
    show win0_2.index _ (1 : Fin 2) * 64 ≤ (i 1).val ∧ (i 1).val < win0_2.index _ (1 : Fin 2) * 64 + 64
    rw [e4]; omega

/-- After the region its result array holds the linear layer of the two arrays the region found. -/
theorem result (c : Dev nD) : (dat0 V c).arrAt 2 cfg0.N = projected (xArr V c) (wArr V c) :=
  (dat0 V c).arrAt_eq_of_cover 2 _ (fun t _ => flushed_eq V c t) covered

end Cert.KernelIdeal.LinearRows

end
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.ScaleRows.lean ====
/-
  The second kernel region multiplies every gathered row by its edge's weight. Its grid has 275 points; point `t`
  works on rows `4000·t … 4000·t + 3999` of the `[1100000, 64]` array of gathered rows and of the `[1100000, 1]`
  column of weights, and writes the same rows of the result. So after the region the result array is ONE function of the
  two arrays the region found: entry `(r, j)` is `rows (r, j) · weights (r, 0)`. The blocks tile the array exactly
  (275 · 4000 = 1100000), so every entry is written.
-/
import proofs.«148598_j59012850647685_1_alg».proof.Proof.Gen.KernelIdeal.Frame
import proofs.«148598_j59012850647685_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScaleRows

open Cert.KernelIdeal Cert.KernelIdeal.Gen
open Idealize.ShloMosaic Idealize.ShloMosaic.TcCoe Idealize.ShloMosaic.ValueIdx Idealize.SL.Sem
open Idealize.ShloMosaic.Pipeline (Dat)

/-- The origin of a rank-2 block. -/
theorem origin2 : (![0, 0] : Fin 2 → Nat) = fun _ => 0 := funext fun a => by fin_cases a <;> rfl

/-- The entry of the weight column that belongs to the row of `i`. -/
abbrev rowOf (i : S1100000x64.Idx) : S1100000x1.Idx := fun a => match a with
  | ⟨0, _⟩ => ⟨(i 0).val, (i 0).isLt⟩
  | ⟨1, _⟩ => ⟨0, Nat.one_pos⟩

/-- Every row times its weight. -/
abbrev scaled (rows : S1100000x64.Idx → Elt Ideal .f32) (weights : S1100000x1.Idx → Elt Ideal .f32) :
    S1100000x64.Idx → Elt Ideal .f32 := fun i => rows i * weights (rowOf i)

/-- The body's product at an entry of the block: the row's entry times the row's weight. The two casts to the same
    shape are the identity, and the column is broadcast along the second axis. -/
theorem body_apply (w : Vec Ideal S4000x1 .f32) (x : Vec Ideal S4000x64 .f32) (p : Fin 4000) (q : Fin 64) :
    k1_pay1 (F := Ideal) w x (ix2 p q) = x (ix2 p q) * w (ix2 p (0 : Fin 1)) := by
  unfold k1_pay1
  rw [mulf_apply, shapeCast_self, shapeCast_self, shapeCast_self]
  exact congrArg (x (ix2 p q) * ·) (Cert.LibColumn.broadcastTo_a1_ab_apply w broadcasts_S4000x1_S4000x64 p q)

variable (V : (c : Dev nD) → (b : Ref sig .tc) → Buf (Elt Ideal) ((c : Thread nD τ).loc b))

/-- The two arrays the region reads, as the region finds them, at their literal types. -/
abbrev rowsArr (c : Dev nD) : S1100000x64.Idx → Elt Ideal .f32 := V c main_v41
abbrev weightsArr (c : Dev nD) : S1100000x1.Idx → Elt Ideal .f32 := V c main_v42

/-- The three windows move together: at point `t` each is at block `t` of the rows and block `0` of the columns. -/
theorem index_facts : ∀ t : Fin cfg1.N,
    win1_0.index t (0 : Fin 2) = win1_2.index t (0 : Fin 2) ∧ win1_0.index t (1 : Fin 2) = 0
    ∧ win1_1.index t (0 : Fin 2) = win1_2.index t (0 : Fin 2) ∧ win1_1.index t (1 : Fin 2) = 0
    ∧ win1_2.index t (1 : Fin 2) = 0 ∧ win1_2.index t (0 : Fin 2) = t.val :=
  (by decide +kernel : ∀ t : Fin grid1.N, _)

/-- What point `t` writes back is block `t` of `scaled` of the two arrays the region found. -/
theorem flushed_eq (c : Dev nD) (t : Fin cfg1.N) :
    (dat1 V c).flushed 2 t = ((cfg1.win 2).blk t).view.read (Elt Ideal) (scaled (V c main_v41) (V c main_v42)) := by
  show (cfg1.win 2).cut (grid1.coords t) ((dat1 V c).after 2 t) = _
  rw [after1_2]
  unfold out1_2
  rw [View.canon_unit_zero origin2]
  simp only [View.ld_unit_zero (S := S4000x64) origin2, View.ld_unit_zero (S := S4000x1) origin2]
  obtain ⟨e0, e1, e2, e3, e4, e5⟩ := index_facts t
  funext j
  obtain ⟨p, q, rfl⟩ : ∃ (p : Fin 4000) (q : Fin 64), j = ix2 p q := ⟨j 0, j 1, eq_ix2 j⟩
  refine (body_apply (iblk1 V c 1 t) (iblk1 V c 0 t) p q).trans ?_
  show rowsArr V c (((cfg1.win 0).blk t).view.emb (ix2 p q)) * weightsArr V c (((cfg1.win 1).blk t).view.emb (ix2 p (0 : Fin 1)))
    = rowsArr V c (((cfg1.win 2).blk t).view.emb (ix2 p q)) * weightsArr V c (rowOf (((cfg1.win 2).blk t).view.emb (ix2 p q)))
  have h0 : ((cfg1.win 0).blk t).view.emb (ix2 p q) = ((cfg1.win 2).blk t).view.emb (ix2 p q) := by
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = rowOf (((cfg1.win 2).blk t).view.emb (ix2 p q)) := by
    funext a; apply Fin.ext
    match a with
    | ⟨0, _⟩ => show win1_1.index t (0 : Fin 2) * 4000 + 1 * p.val = win1_2.index t (0 : Fin 2) * 4000 + 1 * p.val; omega
    | ⟨1, _⟩ => show win1_1.index t (1 : Fin 2) * 1 + 1 * 0 = 0; omega
  rw [h0, h1]

/-- An index of the array is in point `t`'s block iff each coordinate is in the block's range on its axis. -/
theorem mem_block (t : Fin cfg1.N) (i : S1100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v43).slice (win1_2.rect t)).set ↔ _
  rw [View.set_slice_whole, Rect.mem_set_unit]
  exact Iff.rfl

/-- Every entry is in the block of the point its row falls in. -/
theorem covered (i : S1100000x64.Idx) :
    ∃ t : Fin cfg1.N, (cfg1.win 2).flush t = true ∧ i ∈ ((cfg1.win 2).blk t).view.set := by
  have hi0 : (i 0).val < 1100000 := (i 0).isLt
  have hi1 : (i 1).val < 64 := (i 1).isLt
  refine ⟨⟨(i 0).val / 4000, by show (i 0).val / 4000 < 275; omega⟩, flush1_2 _, ?_⟩
  obtain ⟨e0, e1, e2, e3, e4, e5⟩ := index_facts ⟨(i 0).val / 4000, by show (i 0).val / 4000 < 275; omega⟩
  rw [mem_block]
  intro a
  match a with
  | ⟨0, _⟩ =>
    show win1_2.index _ (0 : Fin 2) * 4000 ≤ (i 0).val ∧ (i 0).val < win1_2.index _ (0 : Fin 2) * 4000 + 4000
    rw [e5]; show (i 0).val / 4000 * 4000 ≤ (i 0).val ∧ (i 0).val < (i 0).val / 4000 * 4000 + 4000; omega
  | ⟨1, _⟩ =>
    show win1_2.index _ (1 : Fin 2) * 64 ≤ (i 1).val ∧ (i 1).val < win1_2.index _ (1 : Fin 2) * 64 + 64
    rw [e4]; omega

/-- After the region its result array holds every gathered row times its weight. -/
theorem result (c : Dev nD) : (dat1 V c).arrAt 2 cfg1.N = scaled (V c main_v41) (V c main_v42) :=
  (dat1 V c).arrAt_eq_of_cover 2 _ (fun t _ => flushed_eq V c t) covered

end Cert.KernelIdeal.ScaleRows

end
-- ==== Proof.BiasRows.lean ====
/-
  The third kernel region adds the bias to every row of the aggregated messages. Its grid has 25 points; point `t`
  works on rows `4000·t … 4000·t + 3999` of the `[100000, 64]` array and reads the whole `[64]` bias at every
  point. So after the region the result array is ONE function of the two arrays the region found: entry `(r, j)` is
  `messages (r, j) + bias j`. The blocks tile the array exactly (25 · 4000 = 100000), so every entry is written.
-/
import proofs.«148598_j59012850647685_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRows

open Cert.KernelIdeal Cert.KernelIdeal.Gen
open Idealize.ShloMosaic Idealize.ShloMosaic.TcCoe Idealize.ShloMosaic.ValueIdx Idealize.SL.Sem
open Idealize.ShloMosaic.Pipeline (Dat)

/-- The origin of a rank-2 block, and of a rank-1 block. -/
theorem origin2 : (![0, 0] : Fin 2 → Nat) = fun _ => 0 := funext fun a => by fin_cases a <;> rfl
theorem origin1 : (![0] : Fin 1 → Nat) = fun _ => 0 := funext fun a => by fin_cases a; rfl

/-- The entry of the bias that belongs to the column of `i`. -/
abbrev colOf (i : S100000x64.Idx) : S64.Idx := fun a => match a with
  | ⟨0, _⟩ => ⟨(i 1).val, (i 1).isLt⟩

/-- Every row plus the bias. -/
abbrev biased (rows : S100000x64.Idx → Elt Ideal .f32) (bias : S64.Idx → Elt Ideal .f32) :
    S100000x64.Idx → Elt Ideal .f32 := fun i => rows i + bias (colOf i)

/-- The body's sum at an entry of the block: the row's entry plus the bias of its column. The bias is cast to one row
    `[1, 64]` and that row broadcast along the first axis; the casts to the same shape are the identity. -/
theorem body_apply (b : Vec Ideal S64 .f32) (x : Vec Ideal S4000x64 .f32) (p : Fin 4000) (q : Fin 64) :
    k2_pay1 (F := Ideal) b x (ix2 p q) = x (ix2 p q) + b (ix1 q) := by
  unfold k2_pay1
  rw [addf_apply, shapeCast_self, shapeCast_self]
  refine congrArg (x (ix2 p q) + ·) ?_
  exact (broadcastTo_1b_ab_apply _ broadcasts_S1x64_S4000x64 p q).trans (shapeCast_a_1a_apply b shapeCasts_S64_S1x64 0 q)

variable (V : (c : Dev nD) → (b : Ref sig .tc) → Buf (Elt Ideal) ((c : Thread nD τ).loc b))

/-- The two arrays the region reads, as the region finds them, at their literal types. -/
abbrev rowsArr (c : Dev nD) : S100000x64.Idx → Elt Ideal .f32 := V c main_v46
abbrev biasArr (c : Dev nD) : S64.Idx → Elt Ideal .f32 := V c main_arg3

/-- The row windows move together, at block `t` of the rows and block `0` of the columns; the bias window stays at `0`. -/
theorem index_facts : ∀ t : Fin cfg2.N,
    win2_0.index t (0 : Fin 2) = win2_2.index t (0 : Fin 2) ∧ win2_0.index t (1 : Fin 2) = 0
    ∧ win2_1.index t (0 : Fin 1) = 0
    ∧ win2_2.index t (1 : Fin 2) = 0 ∧ win2_2.index t (0 : Fin 2) = t.val :=
  (by decide +kernel : ∀ t : Fin grid2.N, _)

/-- What point `t` writes back is block `t` of `biased` of the two arrays the region found. -/
theorem flushed_eq (c : Dev nD) (t : Fin cfg2.N) :
    (dat2 V c).flushed 2 t = ((cfg2.win 2).blk t).view.read (Elt Ideal) (biased (V c main_v46) (V c main_arg3)) := by
  show (cfg2.win 2).cut (grid2.coords t) ((dat2 V c).after 2 t) = _
  rw [after2_2]
  unfold out2_2
  rw [View.canon_unit_zero origin2]
  simp only [View.ld_unit_zero (S := S4000x64) origin2, View.ld_unit_zero (S := S64) origin1]
  obtain ⟨e0, e1, e2, e3, e4⟩ := index_facts t
  funext j
  obtain ⟨p, q, rfl⟩ : ∃ (p : Fin 4000) (q : Fin 64), j = ix2 p q := ⟨j 0, j 1, eq_ix2 j⟩
  refine (body_apply (iblk2 V c 1 t) (iblk2 V c 0 t) p q).trans ?_
  show rowsArr V c (((cfg2.win 0).blk t).view.emb (ix2 p q)) + biasArr V c (((cfg2.win 1).blk t).view.emb (ix1 q))
    = rowsArr V c (((cfg2.win 2).blk t).view.emb (ix2 p q)) + biasArr V c (colOf (((cfg2.win 2).blk t).view.emb (ix2 p q)))
  have h0 : ((cfg2.win 0).blk t).view.emb (ix2 p q) = ((cfg2.win 2).blk t).view.emb (ix2 p q) := by
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 64 + 1 * q.val = win2_2.index t (1 : Fin 2) * 64 + 1 * q.val; omega
  have h1 : ((cfg2.win 1).blk t).view.emb (ix1 q) = colOf (((cfg2.win 2).blk t).view.emb (ix2 p q)) := by
    funext a; apply Fin.ext
    match a with
    | ⟨0, _⟩ => show win2_1.index t (0 : Fin 1) * 64 + 1 * q.val = win2_2.index t (1 : Fin 2) * 64 + 1 * q.val; omega
  rw [h0, h1]

/-- An index of the array is in point `t`'s block iff each coordinate is in the block's range on its axis. -/
theorem mem_block (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v47).slice (win2_2.rect t)).set ↔ _
  rw [View.set_slice_whole, Rect.mem_set_unit]
  exact Iff.rfl

/-- Every entry is in the block of the point its row falls in. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 4000, by show (i 0).val / 4000 < 25; omega⟩, flush2_2 _, ?_⟩
  obtain ⟨e0, e1, e2, e3, e4⟩ := index_facts ⟨(i 0).val / 4000, by show (i 0).val / 4000 < 25; omega⟩
  rw [mem_block]
  intro a
  match a with
  | ⟨0, _⟩ =>
    show win2_2.index _ (0 : Fin 2) * 4000 ≤ (i 0).val ∧ (i 0).val < win2_2.index _ (0 : Fin 2) * 4000 + 4000
    rw [e4]; show (i 0).val / 4000 * 4000 ≤ (i 0).val ∧ (i 0).val < (i 0).val / 4000 * 4000 + 4000; omega
  | ⟨1, _⟩ =>
    show win2_2.index _ (1 : Fin 2) * 64 ≤ (i 1).val ∧ (i 1).val < win2_2.index _ (1 : Fin 2) * 64 + 64
    rw [e3]; omega

/-- After the region its result array holds every row of the aggregated messages plus the bias. -/
theorem result (c : Dev nD) : (dat2 V c).arrAt 2 cfg2.N = biased (V c main_v46) (V c main_arg3) :=
  (dat2 V c).arrAt_eq_of_cover 2 _ (fun t _ => flushed_eq V c t) covered

end Cert.KernelIdeal.BiasRows

end
-- ==== Proof.KernelValue.lean ====
/-
  The value the kernel's program computes. @main is three kernel regions among stretches of host operations. Before the first
  region the host computes, from the edge list alone, the source index `row`, the destination index `col` and the edge
  weight `norm` of each of the 1100000 messages; these three arrays are never written again, and this module keeps them as
  the contents the first region's entry boundary gives them. Then:
    region 0   h    = x · Wᵀ                                  (LinearRows)
    host       hg   = the rows of h at `row` (negative indices wrapped once), and `norm` as a column
    region 1   msgs = hg · norm, row by row                    (ScaleRows)
    host       agg  = msgs summed into the rows `col` of a zero array
    region 2   out  = agg + bias                               (BiasRows)
  Each region's result array is one function of the arrays it found; each host stretch is read operation by operation.
-/
import proofs.«148598_j59012850647685_1_alg».proof.Proof.LinearRows
import proofs.«148598_j59012850647685_1_alg».proof.Proof.ScaleRows
import proofs.«148598_j59012850647685_1_alg».proof.Proof.BiasRows
import Idealize.ShloMosaic.Lib.StableHlo.Run

set_option maxRecDepth 16384

noncomputable section

namespace Cert.KernelIdeal.Messages

open Cert.KernelIdeal Cert.KernelIdeal.Gen
open Idealize.ShloMosaic Idealize.ShloMosaic.TcCoe Idealize.SL.Sem Idealize.ShloMosaic.StableHlo

/-! ## The host operations between the regions, as functions of what they read -/

section Host
variable {F : FTy → Type} [FloatOps F]

/-- An index array as the column of start indices a gather reads: a negative index is wrapped once by the number of nodes. -/
def startIndices (idx : (⟨S1100000, .i32⟩ : BufTy).Contents (Elt F)) : (⟨S1100000x1, .i32⟩ : BufTy).Contents (Elt F) :=
  broadcastInDim S1100000x1 ![0] bcast_S1100000_S1100000x1_0
    (select (cmpi .slt idx (broadcastInDim S1100000 ![] bcast_S_S1100000 (constantI S_ 32 0#32)))
      (addi idx (broadcastInDim S1100000 ![] bcast_S_S1100000 (constantI S_ 32 100000#32))) idx)

/-- The rows of `h` at the source indices: one gathered row per message. -/
def gatherRows (h : (⟨S100000x64, .f32⟩ : BufTy).Contents (Elt F)) (idx : (⟨S1100000, .i32⟩ : BufTy).Contents (Elt F)) :
    (⟨S1100000x64, .f32⟩ : BufTy).Contents (Elt F) :=
  Host.gather gather_S100000x64_S1100000x1_S1100000x64_1_0_n_n_0_1_164 h (startIndices idx)

/-- The weights as a column. -/
def weightColumn (n : (⟨S1100000, .f32⟩ : BufTy).Contents (Elt F)) : (⟨S1100000x1, .f32⟩ : BufTy).Contents (Elt F) :=
  shapeCast S1100000x1 n shapeCasts_S1100000_S1100000x1

/-- The messages summed into the rows of a zero array at their destination indices. -/
def scatterMessages (idx : (⟨S1100000, .i32⟩ : BufTy).Contents (Elt F)) (msgs : (⟨S1100000x64, .f32⟩ : BufTy).Contents (Elt F)) :
    (⟨S100000x64, .f32⟩ : BufTy).Contents (Elt F) :=
  Host.scatterAdd scatter_S100000x64_S1100000x1_S1100000x64_1_0_0_1
    (broadcastInDim S100000x64 ![] bcast_S_S100000x64 (constant S_ .f32 0x00000000#32))
    (broadcastInDim S1100000x1 ![0] bcast_S1100000_S1100000x1_0 idx) msgs

end Host

/-! ## The run, boundary by boundary -/

variable (m : (ℓ : Loc nD τ sig) → Buf (Elt Ideal) ℓ) (ρ : Dev nD → PrngReg)

/-- What the host computed before the first region: source index, destination index and weight of every message. -/
abbrev rowIdx (c : Dev nD) : (⟨S1100000, .i32⟩ : BufTy).Contents (Elt Ideal) := W3 m ρ c (Proc.devRef .tc main_v7)
abbrev colIdx (c : Dev nD) : (⟨S1100000, .i32⟩ : BufTy).Contents (Elt Ideal) := W3 m ρ c (Proc.devRef .tc main_v8)
abbrev norm (c : Dev nD) : (⟨S1100000, .f32⟩ : BufTy).Contents (Elt Ideal) := W3 m ρ c (Proc.devRef .tc main_v33)

/-- The arguments the first region reads are still as launched when it is entered. -/
theorem entry_x (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem entry_w (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

/-- Region 0 leaves the linear layer of the launched `x` and `W` in its result array. -/
theorem after_linear (c : Dev nD) :
    W4 m ρ c (Proc.devRef .tc main_v34)
      = LinearRows.projected (m ((c : Thread nD τ).loc main_arg0)) (m ((c : Thread nD τ).loc main_arg2)) := by
  refine ((W4_arr m ρ c 2).trans (LinearRows.result (V3 m ρ) c)).trans ?_
  show LinearRows.projected (W3 m ρ c (Proc.devRef .tc main_arg0)) (W3 m ρ c (Proc.devRef .tc main_arg2)) = _
  rw [entry_x, entry_w]

/-- Region 0 writes none of the three message arrays. -/
theorem linear_keeps_row (c : Dev nD) : W4 m ρ c (Proc.devRef .tc main_v7) = rowIdx m ρ c := W4_of_ne m ρ c main_v7 (by decide)
theorem linear_keeps_col (c : Dev nD) : W4 m ρ c (Proc.devRef .tc main_v8) = colIdx m ρ c := W4_of_ne m ρ c main_v8 (by decide)
theorem linear_keeps_norm (c : Dev nD) : W4 m ρ c (Proc.devRef .tc main_v33) = norm m ρ c := W4_of_ne m ρ c main_v33 (by decide)

/-- The host stretch between regions 0 and 1: the gathered rows, the weight column, and the destination index untouched. -/
theorem gathered (c : Dev nD) :
    W5 m ρ c (Proc.devRef .tc main_v41)
      = gatherRows (W4 m ρ c (Proc.devRef .tc main_v34)) (W4 m ρ c (Proc.devRef .tc main_v7)) := by
  show StableHlo.after hostOps1 (W4 m ρ c) (Proc.devRef .tc main_v41) = _
  after_results
  rfl
theorem weights (c : Dev nD) :
    W5 m ρ c (Proc.devRef .tc main_v42) = weightColumn (W4 m ρ c (Proc.devRef .tc main_v33)) := by
  show StableHlo.after hostOps1 (W4 m ρ c) (Proc.devRef .tc main_v42) = _
  after_results
  rfl
theorem gather_keeps_col (c : Dev nD) : W5 m ρ c (Proc.devRef .tc main_v8) = W4 m ρ c (Proc.devRef .tc main_v8) := by
  show StableHlo.after hostOps1 (W4 m ρ c) (Proc.devRef .tc main_v8) = _
  after_results

/-- Region 1 leaves every gathered row times its weight, and does not write the destination index. -/
theorem after_scale (c : Dev nD) :
    W6 m ρ c (Proc.devRef .tc main_v43)
      = ScaleRows.scaled (W5 m ρ c (Proc.devRef .tc main_v41)) (W5 m ρ c (Proc.devRef .tc main_v42)) :=
  (W6_arr m ρ c 2).trans (ScaleRows.result (V5 m ρ) c)
theorem scale_keeps_col (c : Dev nD) : W6 m ρ c (Proc.devRef .tc main_v8) = W5 m ρ c (Proc.devRef .tc main_v8) :=
  W6_of_ne m ρ c main_v8 (by decide)

/-- The host stretch between regions 1 and 2: the messages summed by destination; the bias as launched. -/
theorem aggregated (c : Dev nD) :
    W7 m ρ c (Proc.devRef .tc main_v46)
      = scatterMessages (W6 m ρ c (Proc.devRef .tc main_v8)) (W6 m ρ c (Proc.devRef .tc main_v43)) := by
  show StableHlo.after hostOps2 (W6 m ρ c) (Proc.devRef .tc main_v46) = _
  after_results
  rfl
theorem entry_bias (c : Dev nD) : W7 m ρ c (Proc.devRef .tc main_arg3) = m ((c : Thread nD τ).loc main_arg3) :=
  ((W8_arr m ρ c 1).trans (((dat2 (V7 m ρ) c).arrAt_in 1 rfl _).trans (A_eq2 (V7 m ρ) c 1))).symm.trans (W8_main_arg3 m ρ c)

/-- THE KERNEL'S RESULT: region 2 adds the bias to the aggregated messages. -/
theorem value (c : Dev nD) :
    W8 m ρ c (Proc.devRef .tc main_v47)
      = BiasRows.biased
          (scatterMessages (colIdx m ρ c)
            (ScaleRows.scaled
              (gatherRows (LinearRows.projected (m ((c : Thread nD τ).loc main_arg0)) (m ((c : Thread nD τ).loc main_arg2))) (rowIdx m ρ c))
              (weightColumn (norm m ρ c))))
          (m ((c : Thread nD τ).loc main_arg3)) := by
  refine ((W8_arr m ρ c 2).trans (BiasRows.result (V7 m ρ) c)).trans ?_
  show BiasRows.biased (W7 m ρ c (Proc.devRef .tc main_v46)) (W7 m ρ c (Proc.devRef .tc main_arg3)) = _
  rw [entry_bias, aggregated, after_scale, scale_keeps_col, gather_keeps_col, linear_keeps_col, gathered, weights,
    after_linear, linear_keeps_row, linear_keeps_norm]

end Cert.KernelIdeal.Messages

end
-- ==== Proof.Bridge.lean ====
/-
  The kernel's value and the reference's are one function of the arguments.
  The reference computes, as host operations only, `out = scatter-add over col of (norm[:, None] · (x · Wᵀ)[row]) + bias`, with
  the same `row`, `col` and `norm` the kernel's host code computes from the edge list (the same operations in the same
  order: read back here on the kernel's side and compared with the reference's stages). What differs is
    the linear layer     a block-wise matrix product against the transposed weights  vs  one `dot_general`:
                         both are `∑ₖ x (r, k) · W (j, k)` on the extended reals;
    the scaling          `rows · weight`  vs  `weight · rows`: multiplication of extended reals commutes;
    the bias             a `[64]` vector broadcast through `[1, 64]` on both sides.
  No law used here needs the inputs to be finite.
-/
import proofs.«148598_j59012850647685_1_alg».proof.Proof.KernelValue
import proofs.«148598_j59012850647685_1_alg».proof.Proof.RefRead
import proofs.«148598_j59012850647685_1_alg».proof.Proof.LibColumn

set_option maxRecDepth 16384

noncomputable section

namespace Cert.Bridge

open Idealize.ShloMosaic Idealize.ShloMosaic.TcCoe Idealize.ShloMosaic.ValueIdx Idealize.SL.Sem Idealize.ShloMosaic.StableHlo

/-! ## The message arrays: the kernel's host prefix computes the reference's stages -/

section Prefix
open Cert.KernelIdeal Cert.KernelIdeal.Gen
variable {F : FTy → Type} [FloatOps F]
variable (m : (ℓ : Loc nD τ sig) → Buf (Elt F) ℓ) (ρ : Dev nD → PrngReg)

/-- The source index of every message: the edges' sources, then every node once. -/
theorem row_eq (c : Dev nD) :
    W3 m ρ c (Proc.devRef .tc main_v7)
      = Cert.ReferenceIdeal.ReadP.val_main_v7 (F := F) (m ((c : Thread nD τ).loc main_arg1)) := by
  show StableHlo.after hostOps0_2 (StableHlo.after hostOps0_1 (StableHlo.after hostOps0 (W0 m ρ c))) (Proc.devRef .tc main_v7) = _
  after_results_simp <;> rfl

/-- The destination index of every message: the edges' destinations, then every node once. -/
theorem col_eq (c : Dev nD) :
    W3 m ρ c (Proc.devRef .tc main_v8)
      = Cert.ReferenceIdeal.ReadP.val_main_v8 (F := F) (m ((c : Thread nD τ).loc main_arg1)) := by
  show StableHlo.after hostOps0_2 (StableHlo.after hostOps0_1 (StableHlo.after hostOps0 (W0 m ρ c))) (Proc.devRef .tc main_v8) = _
  after_results_simp <;> rfl

/-- The weight of every message: `deg^(-1/2)[row] · keep · deg^(-1/2)[col]`, the degree counted over kept edges and self loops. -/
theorem norm_eq (c : Dev nD) :
    W3 m ρ c (Proc.devRef .tc main_v33)
      = Cert.ReferenceIdeal.ReadP.val_main_v33 (F := F) (m ((c : Thread nD τ).loc main_arg1)) := by
  show StableHlo.after hostOps0_2 (StableHlo.after hostOps0_1 (StableHlo.after hostOps0 (W0 m ρ c))) (Proc.devRef .tc main_v33) = _
  after_results_simp <;> rfl

end Prefix

/-! ## The three places where the two programs differ -/

section Laws
open Cert.ReferenceIdeal Cert.ReferenceIdeal.Gen Cert.ReferenceIdeal.ReadP

/-- The linear layer: the kernel's row-against-row sums are the reference's product with the transposed weights. -/
theorem linear_eq (x0 : (⟨S100000x64, .f32⟩ : BufTy).Contents (Elt Ideal)) (x2 : (⟨S64x64, .f32⟩ : BufTy).Contents (Elt Ideal)) :
    Cert.KernelIdeal.LinearRows.projected x0 x2 = val_main_v35 (F := Ideal) x0 x2 := by
  funext i
  rw [val_main_v35_apply]
  refine Finset.sum_congr rfl fun k _ => ?_
  rw [val_main_v34_apply]
  rfl

/-- A vector made a column reads, at `(r, 0)`, the vector at `r`. -/
theorem column_apply {α : Type} (n : S1100000.Idx → α) (j : S1100000x1.Idx) :
    broadcastInDim S1100000x1 ![0] bcast_S1100000_S1100000x1_0 n j = n (idx_main_v36 j) :=
  broadcastInDim_apply _ bcast_S1100000_S1100000x1_0 n j (idx_main_v36 j) (fun a => match a with
    | ⟨0, _⟩ => by show (j 0).val = if (1100000 : Nat) = 1 then 0 else (j 0).val; rw [if_neg (by decide)])

/-- A column broadcast along the rows reads, at `(r, j)`, the column at `(r, 0)`. -/
theorem along_rows_apply {α : Type} (y : S1100000x1.Idx → α) (i : S1100000x64.Idx) :
    broadcastInDim S1100000x64 ![0, 1] bcast_S1100000x1_S1100000x64_0_1 y i = y (idx_main_v44 i) :=
  broadcastInDim_apply _ bcast_S1100000x1_S1100000x64_0_1 y i (idx_main_v44 i) (fun a => match a with
    | ⟨0, _⟩ => by show (i 0).val = if (1100000 : Nat) = 1 then 0 else (i 0).val; rw [if_neg (by decide)]
    | ⟨1, _⟩ => by show 0 = if (1 : Nat) = 1 then 0 else (i 1).val; rw [if_pos rfl])

/-- The scaling, for ANY weight vector: a row times its weight (the vector reshaped to a column) is the weight, made a
    column and broadcast along the row, times the row. Multiplication of extended reals commutes. -/
theorem scale_law (n : (⟨S1100000, .f32⟩ : BufTy).Contents (Elt Ideal)) (hg : (⟨S1100000x64, .f32⟩ : BufTy).Contents (Elt Ideal)) :
    Cert.KernelIdeal.ScaleRows.scaled hg (Cert.KernelIdeal.Messages.weightColumn n)
      = (mulf (broadcastInDim S1100000x64 ![0, 1] bcast_S1100000x1_S1100000x64_0_1
            (broadcastInDim S1100000x1 ![0] bcast_S1100000_S1100000x1_0 n)) hg : FVec Ideal S1100000x64 .f32) := by
  funext i
  show hg i * Cert.KernelIdeal.Messages.weightColumn n (Cert.KernelIdeal.ScaleRows.rowOf i)
    = broadcastInDim S1100000x64 ![0, 1] bcast_S1100000x1_S1100000x64_0_1
        (broadcastInDim S1100000x1 ![0] bcast_S1100000_S1100000x1_0 n) i * hg i
  rw [along_rows_apply, column_apply, mul_comm]
  refine congrArg (· * hg i) ?_
  have hrow : Cert.KernelIdeal.ScaleRows.rowOf i = ix2 (⟨(i 0).val, (i 0).isLt⟩ : Fin 1100000) (0 : Fin 1) :=
    funext fun a => by match a with | ⟨0, _⟩ => rfl | ⟨1, _⟩ => rfl
  unfold Cert.KernelIdeal.Messages.weightColumn
  rw [hrow, Cert.LibColumn.shapeCast_a_a1_apply]
  refine congrArg n ?_
  funext a; match a with | ⟨0, _⟩ => rfl

/-- The reference's broadcast weights are those two broadcasts of its weight stage: its own operations, whatever the float family. -/
theorem weights_stage {F : FTy → Type} [FloatOps F] (x1 : (⟨S2x1000000, .i32⟩ : BufTy).Contents (Elt F)) :
    val_main_v44 (F := F) x1
      = broadcastInDim S1100000x64 ![0, 1] bcast_S1100000x1_S1100000x64_0_1
          (broadcastInDim S1100000x1 ![0] bcast_S1100000_S1100000x1_0 (val_main_v33 (F := F) x1)) := rfl

/-- The scaling at the reference's weights. -/
theorem scale_eq (x1 : (⟨S2x1000000, .i32⟩ : BufTy).Contents (Elt Ideal)) (hg : (⟨S1100000x64, .f32⟩ : BufTy).Contents (Elt Ideal)) :
    Cert.KernelIdeal.ScaleRows.scaled hg (Cert.KernelIdeal.Messages.weightColumn (val_main_v33 (F := Ideal) x1))
      = (mulf (val_main_v44 (F := Ideal) x1) hg : FVec Ideal S1100000x64 .f32) := by
  rw [weights_stage (F := Ideal) x1]
  exact scale_law _ hg

/-- The bias: both sides add entry `j` of the bias to column `j`. -/
theorem bias_eq (agg : (⟨S100000x64, .f32⟩ : BufTy).Contents (Elt Ideal)) (x3 : (⟨S64, .f32⟩ : BufTy).Contents (Elt Ideal)) :
    Cert.KernelIdeal.BiasRows.biased agg x3 = (addf agg (val_main_v50 (F := Ideal) x3) : FVec Ideal S100000x64 .f32) := by
  funext i
  show agg i + x3 (Cert.KernelIdeal.BiasRows.colOf i) = agg i + val_main_v50 (F := Ideal) x3 i
  rw [val_main_v50_apply, val_main_v49_apply]
  refine congrArg (agg i + x3 ·) ?_
  funext a; match a with | ⟨0, _⟩ => rfl

/-- The reference's last stage, spelt with the kernel's three host pieces around the reference's own linear layer, weight
    broadcast and bias broadcast: the same operations in the same order, whatever the float family. -/
theorem stages_eq {F : FTy → Type} [FloatOps F] (x0 : (⟨S100000x64, .f32⟩ : BufTy).Contents (Elt F)) (x1 : (⟨S2x1000000, .i32⟩ : BufTy).Contents (Elt F))
    (x2 : (⟨S64x64, .f32⟩ : BufTy).Contents (Elt F)) (x3 : (⟨S64, .f32⟩ : BufTy).Contents (Elt F)) :
    (addf
        (Cert.KernelIdeal.Messages.scatterMessages (val_main_v8 (F := F) x1)
          (mulf (val_main_v44 (F := F) x1)
            (Cert.KernelIdeal.Messages.gatherRows (val_main_v35 (F := F) x0 x2) (val_main_v7 (F := F) x1)) : FVec F S1100000x64 .f32))
        (val_main_v50 (F := F) x3) : FVec F S100000x64 .f32)
      = val_main_v51 (F := F) x0 x1 x2 x3 := rfl

/-- THE TWO RESULTS ARE ONE FUNCTION of the four arguments, when the message arrays are the reference's stages. -/
theorem result_eq (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) :
    Cert.KernelIdeal.BiasRows.biased
        (Cert.KernelIdeal.Messages.scatterMessages (val_main_v8 (F := Ideal) x1)
          (Cert.KernelIdeal.ScaleRows.scaled
            (Cert.KernelIdeal.Messages.gatherRows (Cert.KernelIdeal.LinearRows.projected x0 x2) (val_main_v7 (F := Ideal) x1))
            (Cert.KernelIdeal.Messages.weightColumn (val_main_v33 (F := Ideal) x1))))
        x3
      = val_main_v51 (F := Ideal) x0 x1 x2 x3 := by
  rw [bias_eq, scale_eq, linear_eq]
  exact stages_eq x0 x1 x2 x3

end Laws

end Cert.Bridge

end
-- ==== Proof.lean ====
/-
  A graph-convolution layer: `out = Σ over messages into each node of norm · (x · Wᵀ)[source] + bias`, the messages being the
  edges (self loops among them weighted 0) and one self loop per node, `norm = deg^(-1/2)[source] · weight · deg^(-1/2)[dest]`.
  The kernel's program computes the indices and weights on the host, the linear layer, the scaling and the bias addition in three
  kernel regions, and the gather and the scatter-add on the host between them; the reference computes everything on the host.
  The claim's five parts:
    the two kernel programs' frames        the generated frame certificates;
    the reference's frame                  its run, the result dropped;
    the idealization                       rewrote nothing, so there is nothing to preserve;
    equal results on the extended reals    the kernel's run with its result named (the regions' result arrays as whole-array
                                           functions: LinearRows, ScaleRows, BiasRows; the host stretches between them:
                                           KernelValue), the reference's run, and the bridge between the two terms (Bridge):
                                           the same index and weight arrays, the linear layer as the same sums, the scaling by
                                           commutativity of the product, the same bias broadcast. Finiteness of the inputs is
                                           not used.
-/
import proofs.«148598_j59012850647685_1_alg».proof.Defs
import proofs.«148598_j59012850647685_1_alg».proof.Proof.Gen.Kernel
import proofs.«148598_j59012850647685_1_alg».proof.Proof.Gen.Kernel.Frame
import proofs.«148598_j59012850647685_1_alg».proof.Proof.Gen.KernelIdeal
import proofs.«148598_j59012850647685_1_alg».proof.Proof.Gen.KernelIdeal.Frame
import proofs.«148598_j59012850647685_1_alg».proof.Proof.Gen.ReferenceIdeal
import proofs.«148598_j59012850647685_1_alg».proof.Proof.Gen.Pre_finite_inputs
import proofs.«148598_j59012850647685_1_alg».proof.Proof.KernelRun
import proofs.«148598_j59012850647685_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the same result array: the kernel's at the contents its last boundary gives the result buffer,
    which is the reference's last stage of the same arguments. -/
theorem algebraic : Cert.algebraic_KernelIdeal_ReferenceIdeal := by
  intro m ρ m' ρ' _ hagree
  refine ⟨fun c => Cert.KernelIdeal.Gen.W8 m ρ c (Proc.devRef .tc Cert.KernelIdeal.main_v47),
    Cert.KernelIdeal.GenRun.run_named m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v51_eq, (hagree c).1, (hagree c).2.1, (hagree c).2.2.1, (hagree c).2.2.2]
  show _ = Cert.KernelIdeal.Gen.W8 m ρ c (Proc.devRef .tc Cert.KernelIdeal.main_v47)
  rw [Cert.KernelIdeal.Messages.value m ρ c]
  refine (Cert.Bridge.result_eq _ _ _ _).symm.trans ?_
  rw [← Cert.Bridge.row_eq m ρ c, ← Cert.Bridge.col_eq m ρ c, ← Cert.Bridge.norm_eq m ρ c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
